-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50x97 : Shape := ⟨3, ![16384, 50, 97]⟩
abbrev S16384x10x97 : Shape := ⟨3, ![16384, 10, 97]⟩
abbrev S16384x20x97 : Shape := ⟨3, ![16384, 20, 97]⟩
abbrev S_ : Shape := ⟨0, ![]⟩

class Facts : Prop where
  bcast_S_S16384x50x97 : S_.BroadcastsInDim S16384x50x97 (![] : Fin 0 → Fin S16384x50x97.rank)
  reducesTo_S16384x50x97_S_d0_1_2 : S16384x50x97.ReducesTo [0, 1, 2] S_
  h_S_ : 0 < S_.numel
  bcast_S_S16384x10x97 : S_.BroadcastsInDim S16384x10x97 (![] : Fin 0 → Fin S16384x10x97.rank)
  reducesTo_S16384x10x97_S_d0_1_2 : S16384x10x97.ReducesTo [0, 1, 2] S_
  bcast_S_S16384x20x97 : S_.BroadcastsInDim S16384x20x97 (![] : Fin 0 → Fin S16384x20x97.rank)
  reducesTo_S16384x20x97_S_d0_1_2 : S16384x20x97.ReducesTo [0, 1, 2] S_

variable [Facts]

def fn {F : FTy → Type} [FloatOps F] (main_arg0 : FVec F S16384x50x97 .f32) (main_arg1 : FVec F S16384x10x97 .f32) (main_arg2 : FVec F S16384x20x97 .f32) : IVec S_ 1 :=
  let main_v0 : FVec F S16384x50x97 .f32 := Host.absf main_arg0
  let main_cst : FVec F S_ .f32 := constant S_ .f32 0x7F800000#32
  let main_v1 : FVec F S16384x50x97 .f32 := broadcastInDim S16384x50x97 ![] bcast_S_S16384x50x97 main_cst
  let main_v2 : IVec S16384x50x97 1 := cmpf .olt main_v0 main_v1
  let main_c : IVec S_ 1 := constantI S_ 1 1#1
  let main_v3 : IVec S_ 1 := (fun x v => Host.reduce IntOp.andi x v reducesTo_S16384x50x97_S_d0_1_2 h_S_) main_v2 main_c
  let main_v4 : FVec F S16384x10x97 .f32 := Host.absf main_arg1
  let main_cst_0 : FVec F S_ .f32 := constant S_ .f32 0x7F800000#32
  let main_v5 : FVec F S16384x10x97 .f32 := broadcastInDim S16384x10x97 ![] bcast_S_S16384x10x97 main_cst_0
  let main_v6 : IVec S16384x10x97 1 := cmpf .olt main_v4 main_v5
  let main_c_1 : IVec S_ 1 := constantI S_ 1 1#1
  let main_v7 : IVec S_ 1 := (fun x v => Host.reduce IntOp.andi x v reducesTo_S16384x10x97_S_d0_1_2 h_S_) main_v6 main_c_1
  let main_v8 : IVec S_ 1 := andi main_v3 main_v7
  let main_v9 : FVec F S16384x20x97 .f32 := Host.absf main_arg2
  let main_cst_2 : FVec F S_ .f32 := constant S_ .f32 0x7F800000#32
  let main_v10 : FVec F S16384x20x97 .f32 := broadcastInDim S16384x20x97 ![] bcast_S_S16384x20x97 main_cst_2
  let main_v11 : IVec S16384x20x97 1 := cmpf .olt main_v9 main_v10
  let main_c_3 : IVec S_ 1 := constantI S_ 1 1#1
  let main_v12 : IVec S_ 1 := (fun x v => Host.reduce IntOp.andi x v reducesTo_S16384x20x97_S_d0_1_2 h_S_) main_v11 main_c_3
  let main_v13 : IVec S_ 1 := andi main_v8 main_v12
  main_v13
-- ==== Kernel.lean ====
abbrev S16384x50x97 : Shape := ⟨3, ![16384, 50, 97]⟩
abbrev S16384x10x97 : Shape := ⟨3, ![16384, 10, 97]⟩
abbrev S16384x20x97 : Shape := ⟨3, ![16384, 20, 97]⟩
abbrev S16384 : Shape := ⟨1, ![16384]⟩
abbrev S256x50x97 : Shape := ⟨3, ![256, 50, 97]⟩
abbrev S256x10x97 : Shape := ⟨3, ![256, 10, 97]⟩
abbrev S256x20x97 : Shape := ⟨3, ![256, 20, 97]⟩
abbrev S256 : Shape := ⟨1, ![256]⟩
abbrev S256x97 : Shape := ⟨2, ![256, 97]⟩
abbrev S256x50x32 : Shape := ⟨3, ![256, 50, 32]⟩
abbrev S256x10x32 : Shape := ⟨3, ![256, 10, 32]⟩
abbrev S256x20x32 : Shape := ⟨3, ![256, 20, 32]⟩
abbrev S256x32 : Shape := ⟨2, ![256, 32]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x50x97, .f32⟩
  | .hbm, ⟨1, _⟩ => ⟨S16384x10x97, .f32⟩
  | .hbm, ⟨2, _⟩ => ⟨S16384x20x97, .f32⟩
  | .hbm, ⟨3, _⟩ => ⟨S16384, .f32⟩
  | .local _ .vmem, ⟨0, _⟩ => ⟨S256x50x97, .f32⟩
  | .local _ .vmem, ⟨1, _⟩ => ⟨S256x50x97, .f32⟩
  | .local _ .vmem, ⟨2, _⟩ => ⟨S256x10x97, .f32⟩
  | .local _ .vmem, ⟨3, _⟩ => ⟨S256x10x97, .f32⟩
  | .local _ .vmem, ⟨4, _⟩ => ⟨S256x20x97, .f32⟩
  | .local _ .vmem, ⟨5, _⟩ => ⟨S256x20x97, .f32⟩
  | .local _ .vmem, ⟨6, _⟩ => ⟨S256, .f32⟩
  | .local _ .vmem, ⟨7, _⟩ => ⟨S256, .f32⟩
  | _, _ => ⟨S16384x50x97, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x50x97 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10x97 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x20x97 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x50x97_S256x50x97_0_0_0 : ∀ a, (![0, 0, 0] : Fin 3 → Nat) a + S256x50x97.size a ≤ S256x50x97.size a
  h_S256x50x97 : 0 < S256x50x97.numel
  inb_S256x10x97_S256x10x97_0_0_0 : ∀ a, (![0, 0, 0] : Fin 3 → Nat) a + S256x10x97.size a ≤ S256x10x97.size a
  h_S256x10x97 : 0 < S256x10x97.numel
  inb_S256x20x97_S256x20x97_0_0_0 : ∀ a, (![0, 0, 0] : Fin 3 → Nat) a + S256x20x97.size a ≤ S256x20x97.size a
  h_S256x20x97 : 0 < S256x20x97.numel
  reduces_S256x50x97_S256x97 : S256x50x97.Reduces [1] S256x97
  reduces_S256x10x97_S256x97 : S256x10x97.Reduces [1] S256x97
  reduces_S256x20x97_S256x97 : S256x20x97.Reduces [1] S256x97
  slices_S256x50x97_o0_0_0_S256x50x32 : S256x50x97.Slices ![0, 0, 0] S256x50x32
  slices_S256x10x97_o0_0_32_S256x10x32 : S256x10x97.Slices ![0, 0, 32] S256x10x32
  slices_S256x20x97_o0_0_64_S256x20x32 : S256x20x97.Slices ![0, 0, 64] S256x20x32
  reduces_S256x50x32_S256x32 : S256x50x32.Reduces [1] S256x32
  reduces_S256x32_S256 : S256x32.Reduces [1] S256
  shapeCasts_S256_S256x1 : S256.ShapeCasts S256x1
  reduces_S256x10x32_S256x32 : S256x10x32.Reduces [1] S256x32
  reduces_S256x20x32_S256x32 : S256x20x32.Reduces [1] S256x32
  slices_S256x97_o0_32_S256x32 : S256x97.Slices ![0, 32] S256x32
  slices_S256x97_o0_0_S256x32 : S256x97.Slices ![0, 0] S256x32
  slices_S256x97_o0_64_S256x32 : S256x97.Slices ![0, 64] S256x32
  slices_S256x97_o0_96_S256x1 : S256x97.Slices ![0, 96] S256x1
  shapeCasts_S256x1_S256 : S256x1.ShapeCasts S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x50x97.size a ≤ S16384x50x97.size a
  hwx0_0 : ∀ i : grid0.Coords, EltTy.bits .f32 = 32 ∨ (Rect.block (s := S16384x50x97) S256x50x97.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x10x97.size a ≤ S16384x10x97.size a
  hwx0_1 : ∀ i : grid0.Coords, EltTy.bits .f32 = 32 ∨ (Rect.block (s := S16384x10x97) S256x10x97.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x20x97.size a ≤ S16384x20x97.size a
  hwx0_2 : ∀ i : grid0.Coords, EltTy.bits .f32 = 32 ∨ (Rect.block (s := S16384x20x97) S256x20x97.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S16384.size a
  hwx0_3 : ∀ i : grid0.Coords, EltTy.bits .f32 = 32 ∨ (Rect.block (s := S16384) S256.size (cc0_transform_3 i) (hinb0_3 i)).WholeWords (EltTy.packing .f32)

variable [Facts₀]

abbrev win0_0 : Pipeline.Window sig grid0 :=
  Pipeline.Window.ofSpec (Memref.whole main_arg0) S256x50x97.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x10x97.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x20x97.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x50x97 : Shape := ⟨3, ![16384, 50, 97]⟩
abbrev S16384x10x97 : Shape := ⟨3, ![16384, 10, 97]⟩
abbrev S16384x20x97 : Shape := ⟨3, ![16384, 20, 97]⟩
abbrev S_ : Shape := ⟨0, ![]⟩
abbrev S16384x97 : Shape := ⟨2, ![16384, 97]⟩
abbrev S16384x50x32 : Shape := ⟨3, ![16384, 50, 32]⟩
abbrev S16384x32 : Shape := ⟨2, ![16384, 32]⟩
abbrev S16384 : Shape := ⟨1, ![16384]⟩
abbrev S16384x10x32 : Shape := ⟨3, ![16384, 10, 32]⟩
abbrev S16384x20x32 : Shape := ⟨3, ![16384, 20, 32]⟩
abbrev S16384x1 : Shape := ⟨2, ![16384, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x50x97, .f32⟩
  | .hbm, ⟨1, _⟩ => ⟨S16384x10x97, .f32⟩
  | .hbm, ⟨2, _⟩ => ⟨S16384x20x97, .f32⟩
  | .hbm, ⟨3, _⟩ => ⟨S_, .f32⟩
  | .hbm, ⟨4, _⟩ => ⟨S16384x97, .f32⟩
  | .hbm, ⟨5, _⟩ => ⟨S_, .f32⟩
  | .hbm, ⟨6, _⟩ => ⟨S16384x97, .f32⟩
  | .hbm, ⟨7, _⟩ => ⟨S_, .f32⟩
  | .hbm, ⟨8, _⟩ => ⟨S16384x97, .f32⟩
  | .hbm, ⟨9, _⟩ => ⟨S16384x50x32, .f32⟩
  | .hbm, ⟨10, _⟩ => ⟨S_, .f32⟩
  | .hbm, ⟨11, _⟩ => ⟨S16384x32, .f32⟩
  | .hbm, ⟨12, _⟩ => ⟨S16384x32, .f32⟩
  | .hbm, ⟨13, _⟩ => ⟨S_, .f32⟩
  | .hbm, ⟨14, _⟩ => ⟨S16384, .f32⟩
  | .hbm, ⟨15, _⟩ => ⟨S16384x50x32, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384x10x32, .f32⟩
  | .hbm, ⟨23, _⟩ => ⟨S_, .f32⟩
  | .hbm, ⟨24, _⟩ => ⟨S16384x32, .f32⟩
  | .hbm, ⟨25, _⟩ => ⟨S16384x32, .f32⟩
  | .hbm, ⟨26, _⟩ => ⟨S_, .f32⟩
  | .hbm, ⟨27, _⟩ => ⟨S16384, .f32⟩
  | .hbm, ⟨28, _⟩ => ⟨S16384x10x32, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384x20x32, .f32⟩
  | .hbm, ⟨37, _⟩ => ⟨S_, .f32⟩
  | .hbm, ⟨38, _⟩ => ⟨S16384x32, .f32⟩
  | .hbm, ⟨39, _⟩ => ⟨S16384x32, .f32⟩
  | .hbm, ⟨40, _⟩ => ⟨S_, .f32⟩
  | .hbm, ⟨41, _⟩ => ⟨S16384, .f32⟩
  | .hbm, ⟨42, _⟩ => ⟨S16384x20x32, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S16384x1, .f32⟩
  | .hbm, ⟨69, _⟩ => ⟨S16384, .f32⟩
  | .hbm, ⟨70, _⟩ => ⟨S16384, .f32⟩
  | .hbm, ⟨71, _⟩ => ⟨S16384x1, .f32⟩
  | .hbm, ⟨72, _⟩ => ⟨S16384, .f32⟩
  | .hbm, ⟨73, _⟩ => ⟨S16384, .f32⟩
  | .hbm, ⟨74, _⟩ => ⟨S16384x1, .f32⟩
  | .hbm, ⟨75, _⟩ => ⟨S16384, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | _, _ => ⟨S16384x50x97, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_v16 : Ref sig .tc := ⟨.hbm, 28, rfl⟩
abbrev main_cst_8 : Ref sig .tc := ⟨.hbm, 29, rfl⟩
abbrev main_v17 : Ref sig .tc := ⟨.hbm, 30, rfl⟩
abbrev main_v18 : Ref sig .tc := ⟨.hbm, 31, rfl⟩
abbrev main_cst_9 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_v24 : Ref sig .tc := ⟨.hbm, 39, rfl⟩
abbrev main_cst_11 : Ref sig .tc := ⟨.hbm, 40, rfl⟩
abbrev main_v25 : Ref sig .tc := ⟨.hbm, 41, rfl⟩
abbrev main_v26 : Ref sig .tc := ⟨.hbm, 42, rfl⟩
abbrev main_cst_12 : Ref sig .tc := ⟨.hbm, 43, rfl⟩
abbrev main_v27 : Ref sig .tc := ⟨.hbm, 44, rfl⟩
abbrev main_v28 : Ref sig .tc := ⟨.hbm, 45, rfl⟩
abbrev main_cst_13 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_14 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_15 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_16 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_cst_18 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  reducesTo_S16384x50x97_S16384x97_d1 : S16384x50x97.ReducesTo [1] S16384x97
  h_S_ : 0 < S_.numel
  reducesTo_S16384x10x97_S16384x97_d1 : S16384x10x97.ReducesTo [1] S16384x97
  reducesTo_S16384x20x97_S16384x97_d1 : S16384x20x97.ReducesTo [1] S16384x97
  slices_S16384x50x97_S16384x50x32_0_0_0 : S16384x50x97.Slices ![0, 0, 0] S16384x50x32
  reducesTo_S16384x50x32_S16384x32_d1 : S16384x50x32.ReducesTo [1] S16384x32
  reducesTo_S16384x32_S16384_d1 : S16384x32.ReducesTo [1] S16384
  reducesTo_S16384x50x32_S16384_d1_2 : S16384x50x32.ReducesTo [1, 2] S16384
  bcast_S_S16384 : S_.BroadcastsInDim S16384 (![] : Fin 0 → Fin S16384.rank)
  slices_S16384x10x97_S16384x10x32_0_0_32 : S16384x10x97.Slices ![0, 0, 32] S16384x10x32
  reducesTo_S16384x10x32_S16384x32_d1 : S16384x10x32.ReducesTo [1] S16384x32
  reducesTo_S16384x10x32_S16384_d1_2 : S16384x10x32.ReducesTo [1, 2] S16384
  slices_S16384x20x97_S16384x20x32_0_0_64 : S16384x20x97.Slices ![0, 0, 64] S16384x20x32
  reducesTo_S16384x20x32_S16384x32_d1 : S16384x20x32.ReducesTo [1] S16384x32
  reducesTo_S16384x20x32_S16384_d1_2 : S16384x20x32.ReducesTo [1, 2] S16384
  slices_S16384x97_S16384x32_0_32 : S16384x97.Slices ![0, 32] S16384x32
  slices_S16384x97_S16384x32_0_0 : S16384x97.Slices ![0, 0] S16384x32
  slices_S16384x97_S16384x32_0_64 : S16384x97.Slices ![0, 64] S16384x32
  slices_S16384x97_S16384x1_0_96 : S16384x97.Slices ![0, 96] S16384x1
  shapeCasts_S16384x1_S16384 : S16384x1.ShapeCasts S16384

variable [Facts₀]

class Facts : Prop extends Facts₀ where

variable [Facts]
-- ==== Proof.LibAxisSums.lean ====
/-
  Sums along axes of small arrays, read at explicit coordinates, at the ideal values.

  A rank-3 array `[B, n, w]` summed over its middle axis gives, at `(r, q)`, the sum over `i < n` of the entries
  `(r, i, q)`; a rank-2 array `[B, w]` summed over its last axis gives, at `r`, the sum over `l < w` of the entries
  `(r, l)`. Both are stated for the kernel's `vector.multi_reduction <add>` (whose neutral accumulator the reading
  drops) and for the host's `stablehlo.reduce` with `add` (which adds its initial value in front). The host may also
  sum a rank-3 array over its last TWO axes at once: at `r` that is the initial value plus the double sum over
  `i < n` and `l < w` of the entries `(r, i, l)`; the indices that drop to `r` are exactly the triples `(r, i, l)`,
  which the pairs `(i, l)` enumerate once each.

  The result index is any index `j` whose coordinates are the given ones (hypotheses on `.val`), so that a caller
  may pass whatever spelling of the index its goal carries.
-/
import Idealize.ShloMosaic.PureOps.Ideal.Laws
import Idealize.ShloMosaic.Lib.ValueIdx
import Idealize.ShloMosaic.Lib.IdealHost

noncomputable section

open scoped BigOperators

namespace Idealize.ShloMosaic.AxisSums

open Idealize.ShloMosaic Idealize.ShloMosaic.ValueIdx

variable {φ : FTy}

/-- The kernel's sum over the MIDDLE axis of a `[B, n, w]` array, at an index with coordinates `(r, q)`. -/
theorem middle_sum {B n w : Nat} (P : FVec Ideal ⟨3, ![B, n, w]⟩ φ) (acc : BitVec φ.bits)
    (h : Shape.Reduces ⟨3, ![B, n, w]⟩ [1] ⟨2, ![B, w]⟩) (hφ : FKind.Formats φ) (hacc : acc = FKind.add.neutral φ hφ)
    (j : (⟨2, ![B, w]⟩ : Shape).Idx) (r : Fin B) (q : Fin w) (hr : (j 0).val = r.val) (hq : (j 1).val = q.val) :
    multiReduction .add [1] ⟨2, ![B, w]⟩ P acc h hφ hacc j = ∑ i : Fin n, P (ix3 r i q) := by
  refine (Ideal.multiReduction_add_single P acc h hφ hacc j).trans ?_
  refine Finset.sum_congr rfl fun i _ => congrArg P (funext fun a => Fin.ext ?_)
  match a with
  | ⟨0, _⟩ => exact hr
  | ⟨1, _⟩ => rfl
  | ⟨2, _⟩ => exact hq

/-- The kernel's sum over the LAST axis of a `[B, w]` array, at an index with coordinate `r`. -/
theorem last_sum {B w : Nat} (P : FVec Ideal ⟨2, ![B, w]⟩ φ) (acc : BitVec φ.bits)
    (h : Shape.Reduces ⟨2, ![B, w]⟩ [1] ⟨1, ![B]⟩) (hφ : FKind.Formats φ) (hacc : acc = FKind.add.neutral φ hφ)
    (j : (⟨1, ![B]⟩ : Shape).Idx) (r : Fin B) (hr : (j 0).val = r.val) :
    multiReduction .add [1] ⟨1, ![B]⟩ P acc h hφ hacc j = ∑ l : Fin w, P (ix2 r l) := by
  refine (Ideal.multiReduction_add_single P acc h hφ hacc j).trans ?_
  refine Finset.sum_congr rfl fun l _ => congrArg P (funext fun a => Fin.ext ?_)
  match a with
  | ⟨0, _⟩ => exact hr
  | ⟨1, _⟩ => rfl

/-- The host's sum over the MIDDLE axis of a `[B, n, w]` array, at an index with coordinates `(r, q)`. -/
theorem host_middle_sum {B n w : Nat} (x : (⟨3, ![B, n, w]⟩ : Shape).Idx → EReal) (init : EReal)
    (h' : Shape.ReducesTo ⟨3, ![B, n, w]⟩ [1] ⟨2, ![B, w]⟩) (h : Shape.Reduces ⟨3, ![B, n, w]⟩ [1] ⟨2, ![B, w]⟩)
    (j : (⟨2, ![B, w]⟩ : Shape).Idx) (r : Fin B) (q : Fin w) (hr : (j 0).val = r.val) (hq : (j 1).val = q.val) :
    Ideal.hostReduceAdd h' x init j = init + ∑ i : Fin n, x (ix3 r i q) := by
  refine (Ideal.hostReduceAdd_single h' h x init j).trans (congrArg (init + ·) ?_)
  refine Finset.sum_congr rfl fun i _ => congrArg x (funext fun a => Fin.ext ?_)
  match a with
  | ⟨0, _⟩ => exact hr
  | ⟨1, _⟩ => rfl
  | ⟨2, _⟩ => exact hq

/-- The host's sum over the LAST axis of a `[B, w]` array, at an index with coordinate `r`. -/
theorem host_last_sum {B w : Nat} (x : (⟨2, ![B, w]⟩ : Shape).Idx → EReal) (init : EReal)
    (h' : Shape.ReducesTo ⟨2, ![B, w]⟩ [1] ⟨1, ![B]⟩) (h : Shape.Reduces ⟨2, ![B, w]⟩ [1] ⟨1, ![B]⟩)
    (j : (⟨1, ![B]⟩ : Shape).Idx) (r : Fin B) (hr : (j 0).val = r.val) :
    Ideal.hostReduceAdd h' x init j = init + ∑ l : Fin w, x (ix2 r l) := by
  refine (Ideal.hostReduceAdd_single h' h x init j).trans (congrArg (init + ·) ?_)
  refine Finset.sum_congr rfl fun l _ => congrArg x (funext fun a => Fin.ext ?_)
  match a with
  | ⟨0, _⟩ => exact hr
  | ⟨1, _⟩ => rfl

/-- Dropping the last two coordinates of a rank-3 index keeps the first. -/
theorem drop_last_two_val {B n w : Nat} (h' : Shape.ReducesTo ⟨3, ![B, n, w]⟩ [1, 2] ⟨1, ![B]⟩)
    (i : (⟨3, ![B, n, w]⟩ : Shape).Idx) : (h'.drop i 0).val = (i 0).val := rfl

/-- The host's sum over the LAST TWO axes of a `[B, n, w]` array, at an index with coordinate `r`: the initial value
    plus the double sum over both dropped coordinates. -/
theorem host_last_two_sum {B n w : Nat} (x : (⟨3, ![B, n, w]⟩ : Shape).Idx → EReal) (init : EReal)
    (h' : Shape.ReducesTo ⟨3, ![B, n, w]⟩ [1, 2] ⟨1, ![B]⟩)
    (j : (⟨1, ![B]⟩ : Shape).Idx) (r : Fin B) (hr : (j 0).val = r.val) :
    Ideal.hostReduceAdd h' x init j = init + ∑ i : Fin n, ∑ l : Fin w, x (ix3 r i l) := by
  unfold Ideal.hostReduceAdd
  refine congrArg (init + ·) ?_
  rw [← Finset.sum_product' (s := (Finset.univ : Finset (Fin n))) (t := (Finset.univ : Finset (Fin w)))
    (f := fun i l => x (ix3 r i l))]
  refine Finset.sum_nbij' (fun i => ((⟨(i 1).val, (i 1).isLt⟩ : Fin n), (⟨(i 2).val, (i 2).isLt⟩ : Fin w)))
    (fun p => ix3 r p.1 p.2) ?_ ?_ ?_ ?_ ?_
  · intro i _; exact Finset.mem_product.2 ⟨Finset.mem_univ _, Finset.mem_univ _⟩
  · intro p _
    refine Finset.mem_filter.2 ⟨Finset.mem_univ _, funext fun b => Fin.ext ?_⟩
    match b with
    | ⟨0, _⟩ => exact ((drop_last_two_val h' (ix3 r p.1 p.2)).trans hr.symm)
  · intro i hi
    have hj : h'.drop i = j := (Finset.mem_filter.1 hi).2
    have h0 : (i 0).val = r.val := by
      rw [← drop_last_two_val h' i, hj]; exact hr
    funext a; apply Fin.ext
    match a with
    | ⟨0, _⟩ => exact h0.symm
    | ⟨1, _⟩ => rfl
    | ⟨2, _⟩ => rfl
  · intro p _; rfl
  · intro i hi
    have hj : h'.drop i = j := (Finset.mem_filter.1 hi).2
    have h0 : (i 0).val = r.val := by
      rw [← drop_last_two_val h' i, hj]; exact hr
    refine congrArg x (funext fun a => Fin.ext ?_)
    match a with
    | ⟨0, _⟩ => exact h0
    | ⟨1, _⟩ => rfl
    | ⟨2, _⟩ => rfl

end Idealize.ShloMosaic.AxisSums

end
-- ==== Proof.FieldScore.lean ====
/-
  The score of one sample, and how the two programs' vector operations compute its pieces.

  A sample carries three FIELDS: `n` feature rows of width 97 (n = 50, 10, 20). Columns 0..31, 32..63 and 64..95 of a
  row are three latent blocks of width 32, column 96 is a linear term. With `S_x(q) = Σ_i x(i, q)` the column sums of
  a field `x`:
    * a field's own second-order term on a latent block at offset `off` is
        ½ · ( Σ_l S_x(off + l)²  −  Σ_l Σ_i x(i, off + l)² ),
    * two fields `x`, `y` meet by the dot product  Σ_l S_x(offx + l) · S_y(offy + l)  of their column sums,
    * the linear terms are the column sums at column 96;
  the logit adds the three own terms, the three dot products and the three linear terms in that order, and the
  score is its logistic.

  Everything is on the extended reals; no law beyond reordering a finite sum is used anywhere, so nothing here asks
  for finite entries.

  After the definitions come the readings: each piece as the kernel's operations spell it over one block of `B`
  samples (slices, `multi_reduction`s over one axis, products), and as the host's operations spell it over the
  whole batch (`slice`, `reduce` over one axis or over two at once), each read at the sample `r` and equal to the
  piece above of sample `r`.
-/
import proofs.«146682_j30408368456214_1_alg».proof.Proof.LibAxisSums
import Idealize.ShloMosaic.Lib.Pipeline.Value

noncomputable section

open scoped BigOperators

namespace Cert.FieldScore

open Idealize.ShloMosaic Idealize.ShloMosaic.ValueIdx Idealize.ShloMosaic.AxisSums

/-! ## One sample's score -/

/-- A field of one sample: `n` feature rows of 97 columns. -/
abbrev Field (n : Nat) : Type := Fin n → Fin 97 → EReal

/-- The weight of a field's own term, as both programs spell it: the f32 word of one half. -/
def half : EReal := Ideal.ofBits .f32 0x3F000000#32

/-- Column `off + l` of a row: latent coordinate `l` of the block at offset `off`. -/
def col (off : Nat) (hoff : off + 32 ≤ 97) (l : Fin 32) : Fin 97 := ⟨off + l.val, by have := l.isLt; omega⟩

/-- The column of the linear term. -/
def linCol : Fin 97 := ⟨96, by omega⟩

/-- A field's column sum. -/
def colSum {n : Nat} (x : Field n) (q : Fin 97) : EReal := ∑ i : Fin n, x i q

/-- A field's own second-order term on the latent block at `off`. -/
def ownTerm {n : Nat} (x : Field n) (off : Nat) (hoff : off + 32 ≤ 97) : EReal :=
  half * ((∑ l : Fin 32, colSum x (col off hoff l) * colSum x (col off hoff l))
    - ∑ l : Fin 32, ∑ i : Fin n, x i (col off hoff l) * x i (col off hoff l))

/-- The dot product of two fields' column sums over one latent block of each. -/
def pairTerm {n n' : Nat} (x : Field n) (offx : Nat) (hx : offx + 32 ≤ 97) (y : Field n') (offy : Nat)
    (hy : offy + 32 ≤ 97) : EReal :=
  ∑ l : Fin 32, colSum x (col offx hx l) * colSum y (col offy hy l)

/-- The logit of a sample with user, context and document fields. -/
def logit (u : Field 50) (c : Field 10) (d : Field 20) : EReal :=
  ownTerm u 0 (by omega) + ownTerm c 32 (by omega) + ownTerm d 64 (by omega)
    + pairTerm u 32 (by omega) c 0 (by omega)
    + pairTerm u 64 (by omega) d 0 (by omega)
    + pairTerm c 64 (by omega) d 32 (by omega)
    + colSum u linCol + colSum c linCol + colSum d linCol

/-- The score: the logistic of the logit. -/
def score (u : Field 50) (c : Field 10) (d : Field 20) : EReal := Ideal.logistic (logit u c d)

/-- Sample `r` of a batch array `[B, n, 97]`, as a field. -/
def sample {B n : Nat} (P : (⟨3, ![B, n, 97]⟩ : Shape).Idx → EReal) (r : Fin B) : Field n :=
  fun i q => P (ix3 r i q)

/-- The scores of a whole batch: entry `b` is the score of sample `b` of the three arrays. -/
def scores {B : Nat} (U : (⟨3, ![B, 50, 97]⟩ : Shape).Idx → EReal) (C : (⟨3, ![B, 10, 97]⟩ : Shape).Idx → EReal)
    (D : (⟨3, ![B, 20, 97]⟩ : Shape).Idx → EReal) : (⟨1, ![B]⟩ : Shape).Idx → EReal :=
  fun i => score (sample U (i 0)) (sample C (i 0)) (sample D (i 0))

/-- Nine summands added left to right are equal when the summands are. -/
theorem add_nine {a1 a2 a3 a4 a5 a6 a7 a8 a9 b1 b2 b3 b4 b5 b6 b7 b8 b9 : EReal}
    (h1 : a1 = b1) (h2 : a2 = b2) (h3 : a3 = b3) (h4 : a4 = b4) (h5 : a5 = b5) (h6 : a6 = b6) (h7 : a7 = b7)
    (h8 : a8 = b8) (h9 : a9 = b9) :
    a1 + a2 + a3 + a4 + a5 + a6 + a7 + a8 + a9 = b1 + b2 + b3 + b4 + b5 + b6 + b7 + b8 + b9 := by
  rw [h1, h2, h3, h4, h5, h6, h7, h8, h9]

/-! ## Slices of the last axis, read at coordinates -/

/-- A latent block cut out of a `[B, n, 97]` array, at `(r, i, l)`: the array at column `off + l`. -/
theorem block_slice {B n : Nat} (off : Nat) (hoff : off + 32 ≤ 97) (P : (⟨3, ![B, n, 97]⟩ : Shape).Idx → EReal)
    (hs : Shape.Slices ⟨3, ![B, n, 97]⟩ ![0, 0, off] ⟨3, ![B, n, 32]⟩) (r : Fin B) (i : Fin n) (l : Fin 32) :
    extractStridedSlice ⟨3, ![B, n, 32]⟩ ![0, 0, off] P hs (ix3 r i l) = P (ix3 r i (col off hoff l)) :=
  extractStridedSlice_apply ![0, 0, off] P hs (ix3 r i l) (ix3 r i (col off hoff l)) (fun a => match a with
    | ⟨0, _⟩ => by show r.val = 0 + r.val; omega
    | ⟨1, _⟩ => by show i.val = 0 + i.val; omega
    | ⟨2, _⟩ => rfl)

/-- A latent block cut out of a `[B, 97]` array of column sums, at `(r, l)`: the array at column `off + l`. -/
theorem sums_slice {B : Nat} (off : Nat) (hoff : off + 32 ≤ 97) (S : (⟨2, ![B, 97]⟩ : Shape).Idx → EReal)
    (hs : Shape.Slices ⟨2, ![B, 97]⟩ ![0, off] ⟨2, ![B, 32]⟩) (r : Fin B) (l : Fin 32) :
    extractStridedSlice ⟨2, ![B, 32]⟩ ![0, off] S hs (ix2 r l) = S (ix2 r (col off hoff l)) :=
  extractStridedSlice_apply ![0, off] S hs (ix2 r l) (ix2 r (col off hoff l)) (fun a => match a with
    | ⟨0, _⟩ => by show r.val = 0 + r.val; omega
    | ⟨1, _⟩ => rfl)

/-! ## The kernel's spelling, over one block of `B` samples -/

section Kernel

variable {B : Nat} (hφ : FKind.Formats .f32) (hacc : (0x00000000#32 : BitVec 32) = FKind.add.neutral .f32 hφ)

/-- The block's column sums at `(r, q)`. -/
theorem kernel_colSum {n : Nat} (P : FVec Ideal ⟨3, ![B, n, 97]⟩ .f32)
    (h : Shape.Reduces ⟨3, ![B, n, 97]⟩ [1] ⟨2, ![B, 97]⟩)
    (j : (⟨2, ![B, 97]⟩ : Shape).Idx) (r : Fin B) (q : Fin 97) (hr : (j 0).val = r.val) (hq : (j 1).val = q.val) :
    multiReduction .add [1] ⟨2, ![B, 97]⟩ P 0x00000000#32 h hφ hacc j = colSum (sample P r) q :=
  middle_sum P _ h hφ hacc j r q hr hq

/-- A field's own term: half of (the squared column sums, summed over the block's 32 columns, minus the squares
    summed first over the rows and then over the columns). -/
theorem kernel_ownTerm {n : Nat} (off : Nat) (hoff : off + 32 ≤ 97) (P : FVec Ideal ⟨3, ![B, n, 97]⟩ .f32)
    (hs : Shape.Slices ⟨3, ![B, n, 97]⟩ ![0, 0, off] ⟨3, ![B, n, 32]⟩)
    (h1 : Shape.Reduces ⟨3, ![B, n, 32]⟩ [1] ⟨2, ![B, 32]⟩) (h2 : Shape.Reduces ⟨2, ![B, 32]⟩ [1] ⟨1, ![B]⟩)
    (j1 j2 : (⟨1, ![B]⟩ : Shape).Idx) (r : Fin B) (hj1 : (j1 0).val = r.val) (hj2 : (j2 0).val = r.val) :
    FloatOps.mulf (F := Ideal) (Scalar.ofBits .f32 0x3F000000#32)
      (FloatOps.subf
        (multiReduction .add [1] ⟨1, ![B]⟩
          (mulf (multiReduction .add [1] ⟨2, ![B, 32]⟩ (extractStridedSlice ⟨3, ![B, n, 32]⟩ ![0, 0, off] P hs) 0x00000000#32 h1 hφ hacc)
            (multiReduction .add [1] ⟨2, ![B, 32]⟩ (extractStridedSlice ⟨3, ![B, n, 32]⟩ ![0, 0, off] P hs) 0x00000000#32 h1 hφ hacc))
          0x00000000#32 h2 hφ hacc j1)
        (multiReduction .add [1] ⟨1, ![B]⟩
          (multiReduction .add [1] ⟨2, ![B, 32]⟩
            (mulf (extractStridedSlice ⟨3, ![B, n, 32]⟩ ![0, 0, off] P hs) (extractStridedSlice ⟨3, ![B, n, 32]⟩ ![0, 0, off] P hs))
            0x00000000#32 h1 hφ hacc)
          0x00000000#32 h2 hφ hacc j2))
      = ownTerm (sample P r) off hoff := by
  have hS : ∀ l : Fin 32,
      multiReduction .add [1] ⟨2, ![B, 32]⟩ (extractStridedSlice ⟨3, ![B, n, 32]⟩ ![0, 0, off] P hs) 0x00000000#32 h1 hφ hacc (ix2 r l)
        = colSum (sample P r) (col off hoff l) := fun l =>
    (middle_sum _ _ h1 hφ hacc (ix2 r l) r l rfl rfl).trans
      (Finset.sum_congr rfl fun i _ => block_slice off hoff P hs r i l)
  have hssq := (last_sum
      (mulf (multiReduction .add [1] ⟨2, ![B, 32]⟩ (extractStridedSlice ⟨3, ![B, n, 32]⟩ ![0, 0, off] P hs) 0x00000000#32 h1 hφ hacc)
        (multiReduction .add [1] ⟨2, ![B, 32]⟩ (extractStridedSlice ⟨3, ![B, n, 32]⟩ ![0, 0, off] P hs) 0x00000000#32 h1 hφ hacc))
      _ h2 hφ hacc j1 r hj1).trans
    (Finset.sum_congr rfl fun l _ => congrArg₂ (· * ·) (hS l) (hS l))
  have hxsq := (last_sum
      (multiReduction .add [1] ⟨2, ![B, 32]⟩
        (mulf (extractStridedSlice ⟨3, ![B, n, 32]⟩ ![0, 0, off] P hs) (extractStridedSlice ⟨3, ![B, n, 32]⟩ ![0, 0, off] P hs))
        0x00000000#32 h1 hφ hacc)
      _ h2 hφ hacc j2 r hj2).trans
    (Finset.sum_congr rfl fun l _ =>
      (middle_sum _ _ h1 hφ hacc (ix2 r l) r l rfl rfl).trans
        (Finset.sum_congr rfl fun i _ =>
          congrArg₂ (· * ·) (block_slice off hoff P hs r i l) (block_slice off hoff P hs r i l)))
  exact congrArg₂ (fun a b : EReal => half * (a - b)) hssq hxsq

/-- Two fields' dot product: their column sums, each cut to its latent block, multiplied and summed over the 32
    columns. -/
theorem kernel_pairTerm {n n' : Nat} (offx : Nat) (hx : offx + 32 ≤ 97) (offy : Nat) (hy : offy + 32 ≤ 97)
    (Px : FVec Ideal ⟨3, ![B, n, 97]⟩ .f32) (Py : FVec Ideal ⟨3, ![B, n', 97]⟩ .f32)
    (hrx : Shape.Reduces ⟨3, ![B, n, 97]⟩ [1] ⟨2, ![B, 97]⟩) (hry : Shape.Reduces ⟨3, ![B, n', 97]⟩ [1] ⟨2, ![B, 97]⟩)
    (hsx : Shape.Slices ⟨2, ![B, 97]⟩ ![0, offx] ⟨2, ![B, 32]⟩) (hsy : Shape.Slices ⟨2, ![B, 97]⟩ ![0, offy] ⟨2, ![B, 32]⟩)
    (h2 : Shape.Reduces ⟨2, ![B, 32]⟩ [1] ⟨1, ![B]⟩)
    (j : (⟨1, ![B]⟩ : Shape).Idx) (r : Fin B) (hj : (j 0).val = r.val) :
    multiReduction .add [1] ⟨1, ![B]⟩
      (mulf (extractStridedSlice ⟨2, ![B, 32]⟩ ![0, offx] (multiReduction .add [1] ⟨2, ![B, 97]⟩ Px 0x00000000#32 hrx hφ hacc) hsx)
        (extractStridedSlice ⟨2, ![B, 32]⟩ ![0, offy] (multiReduction .add [1] ⟨2, ![B, 97]⟩ Py 0x00000000#32 hry hφ hacc) hsy))
      0x00000000#32 h2 hφ hacc j
      = pairTerm (sample Px r) offx hx (sample Py r) offy hy :=
  (last_sum _ _ h2 hφ hacc j r hj).trans
    (Finset.sum_congr rfl fun l _ => congrArg₂ (· * ·)
      ((sums_slice offx hx _ hsx r l).trans (kernel_colSum hφ hacc Px hrx _ r (col offx hx l) rfl rfl))
      ((sums_slice offy hy _ hsy r l).trans (kernel_colSum hφ hacc Py hry _ r (col offy hy l) rfl rfl)))

end Kernel

/-! ## The host's spelling, over the whole batch -/

section Host

variable {B : Nat} (hu : 0 < (⟨0, ![]⟩ : Shape).numel)

/-- The host's zero initial value, read: the f32 word zero is the real zero. -/
theorem zero_init : (constant (F := Ideal) ⟨0, ![]⟩ .f32 0x00000000#32) (Shape.Idx.first hu) = 0 :=
  Ideal.ofBits_zero_f32

/-- The batch's column sums at `(r, q)`. -/
theorem host_colSum {n : Nat} (x : FVec Ideal ⟨3, ![B, n, 97]⟩ .f32)
    (h' : Shape.ReducesTo ⟨3, ![B, n, 97]⟩ [1] ⟨2, ![B, 97]⟩) (h : Shape.Reduces ⟨3, ![B, n, 97]⟩ [1] ⟨2, ![B, 97]⟩)
    (j : (⟨2, ![B, 97]⟩ : Shape).Idx) (r : Fin B) (q : Fin 97) (hr : (j 0).val = r.val) (hq : (j 1).val = q.val) :
    Host.reduceAdd x (constant (F := Ideal) ⟨0, ![]⟩ .f32 0x00000000#32) h' hu j = colSum (sample x r) q :=
  (host_middle_sum x _ h' h j r q hr hq).trans (by rw [zero_init hu, zero_add]; rfl)

/-- A field's own term in the host's spelling; the squares are summed over rows and columns at once, which is the
    kernel's columns-of-row-sums order after exchanging the two finite sums. -/
theorem host_ownTerm {n : Nat} (off : Nat) (hoff : off + 32 ≤ 97) (x : FVec Ideal ⟨3, ![B, n, 97]⟩ .f32)
    (hs : Shape.Slices ⟨3, ![B, n, 97]⟩ ![0, 0, off] ⟨3, ![B, n, 32]⟩)
    (h1' : Shape.ReducesTo ⟨3, ![B, n, 32]⟩ [1] ⟨2, ![B, 32]⟩) (h1 : Shape.Reduces ⟨3, ![B, n, 32]⟩ [1] ⟨2, ![B, 32]⟩)
    (h2' : Shape.ReducesTo ⟨2, ![B, 32]⟩ [1] ⟨1, ![B]⟩) (h2 : Shape.Reduces ⟨2, ![B, 32]⟩ [1] ⟨1, ![B]⟩)
    (h12' : Shape.ReducesTo ⟨3, ![B, n, 32]⟩ [1, 2] ⟨1, ![B]⟩)
    (hb : (⟨0, ![]⟩ : Shape).BroadcastsInDim ⟨1, ![B]⟩ ![])
    (j : (⟨1, ![B]⟩ : Shape).Idx) (r : Fin B) (hj : (j 0).val = r.val) :
    mulf (broadcastInDim ⟨1, ![B]⟩ ![] hb (constant (F := Ideal) ⟨0, ![]⟩ .f32 0x3F000000#32))
      (subf
        (Host.reduceAdd
          (mulf (Host.reduceAdd (extractStridedSlice ⟨3, ![B, n, 32]⟩ ![0, 0, off] x hs) (constant (F := Ideal) ⟨0, ![]⟩ .f32 0x00000000#32) h1' hu)
            (Host.reduceAdd (extractStridedSlice ⟨3, ![B, n, 32]⟩ ![0, 0, off] x hs) (constant (F := Ideal) ⟨0, ![]⟩ .f32 0x00000000#32) h1' hu))
          (constant (F := Ideal) ⟨0, ![]⟩ .f32 0x00000000#32) h2' hu)
        (Host.reduceAdd
          (mulf (extractStridedSlice ⟨3, ![B, n, 32]⟩ ![0, 0, off] x hs) (extractStridedSlice ⟨3, ![B, n, 32]⟩ ![0, 0, off] x hs))
          (constant (F := Ideal) ⟨0, ![]⟩ .f32 0x00000000#32) h12' hu)) j
      = ownTerm (sample x r) off hoff := by
  have hS : ∀ l : Fin 32,
      Host.reduceAdd (extractStridedSlice ⟨3, ![B, n, 32]⟩ ![0, 0, off] x hs) (constant (F := Ideal) ⟨0, ![]⟩ .f32 0x00000000#32) h1' hu (ix2 r l)
        = colSum (sample x r) (col off hoff l) := fun l =>
    (host_middle_sum _ _ h1' h1 (ix2 r l) r l rfl rfl).trans (by
      rw [zero_init hu, zero_add]
      exact Finset.sum_congr rfl fun i _ => block_slice off hoff x hs r i l)
  have hssq : Host.reduceAdd
        (mulf (Host.reduceAdd (extractStridedSlice ⟨3, ![B, n, 32]⟩ ![0, 0, off] x hs) (constant (F := Ideal) ⟨0, ![]⟩ .f32 0x00000000#32) h1' hu)
          (Host.reduceAdd (extractStridedSlice ⟨3, ![B, n, 32]⟩ ![0, 0, off] x hs) (constant (F := Ideal) ⟨0, ![]⟩ .f32 0x00000000#32) h1' hu))
        (constant (F := Ideal) ⟨0, ![]⟩ .f32 0x00000000#32) h2' hu j
      = ∑ l : Fin 32, colSum (sample x r) (col off hoff l) * colSum (sample x r) (col off hoff l) :=
    (host_last_sum _ _ h2' h2 j r hj).trans (by
      rw [zero_init hu, zero_add]
      exact Finset.sum_congr rfl fun l _ => congrArg₂ (· * ·) (hS l) (hS l))
  have hxsq : Host.reduceAdd
        (mulf (extractStridedSlice ⟨3, ![B, n, 32]⟩ ![0, 0, off] x hs) (extractStridedSlice ⟨3, ![B, n, 32]⟩ ![0, 0, off] x hs))
        (constant (F := Ideal) ⟨0, ![]⟩ .f32 0x00000000#32) h12' hu j
      = ∑ l : Fin 32, ∑ i : Fin n, sample x r i (col off hoff l) * sample x r i (col off hoff l) :=
    (host_last_two_sum _ _ h12' j r hj).trans (by
      rw [zero_init hu, zero_add, Finset.sum_comm]
      exact Finset.sum_congr rfl fun l _ => Finset.sum_congr rfl fun i _ =>
        congrArg₂ (· * ·) (block_slice off hoff x hs r i l) (block_slice off hoff x hs r i l))
  have hhalf : broadcastInDim ⟨1, ![B]⟩ ![] hb (constant (F := Ideal) ⟨0, ![]⟩ .f32 0x3F000000#32) j = half :=
    broadcastInDim_scalar_apply hb _ j
  exact congrArg₂ (· * ·) hhalf (congrArg₂ (· - ·) hssq hxsq)

/-- Two fields' dot product in the host's spelling. -/
theorem host_pairTerm {n n' : Nat} (offx : Nat) (hx : offx + 32 ≤ 97) (offy : Nat) (hy : offy + 32 ≤ 97)
    (x : FVec Ideal ⟨3, ![B, n, 97]⟩ .f32) (y : FVec Ideal ⟨3, ![B, n', 97]⟩ .f32)
    (hrx' : Shape.ReducesTo ⟨3, ![B, n, 97]⟩ [1] ⟨2, ![B, 97]⟩) (hrx : Shape.Reduces ⟨3, ![B, n, 97]⟩ [1] ⟨2, ![B, 97]⟩)
    (hry' : Shape.ReducesTo ⟨3, ![B, n', 97]⟩ [1] ⟨2, ![B, 97]⟩) (hry : Shape.Reduces ⟨3, ![B, n', 97]⟩ [1] ⟨2, ![B, 97]⟩)
    (hsx : Shape.Slices ⟨2, ![B, 97]⟩ ![0, offx] ⟨2, ![B, 32]⟩) (hsy : Shape.Slices ⟨2, ![B, 97]⟩ ![0, offy] ⟨2, ![B, 32]⟩)
    (h2' : Shape.ReducesTo ⟨2, ![B, 32]⟩ [1] ⟨1, ![B]⟩) (h2 : Shape.Reduces ⟨2, ![B, 32]⟩ [1] ⟨1, ![B]⟩)
    (j : (⟨1, ![B]⟩ : Shape).Idx) (r : Fin B) (hj : (j 0).val = r.val) :
    Host.reduceAdd
      (mulf (extractStridedSlice ⟨2, ![B, 32]⟩ ![0, offx] (Host.reduceAdd x (constant (F := Ideal) ⟨0, ![]⟩ .f32 0x00000000#32) hrx' hu) hsx)
        (extractStridedSlice ⟨2, ![B, 32]⟩ ![0, offy] (Host.reduceAdd y (constant (F := Ideal) ⟨0, ![]⟩ .f32 0x00000000#32) hry' hu) hsy))
      (constant (F := Ideal) ⟨0, ![]⟩ .f32 0x00000000#32) h2' hu j
      = pairTerm (sample x r) offx hx (sample y r) offy hy :=
  (host_last_sum _ _ h2' h2 j r hj).trans (by
    rw [zero_init hu, zero_add]
    exact Finset.sum_congr rfl fun l _ => congrArg₂ (· * ·)
      ((sums_slice offx hx _ hsx r l).trans (host_colSum hu x hrx' hrx _ r (col offx hx l) rfl rfl))
      ((sums_slice offy hy _ hsy r l).trans (host_colSum hu y hry' hry _ r (col offy hy l) rfl rfl)))

end Host

end Cert.FieldScore

end
-- ==== Proof.BlockScore.lean ====
/-
  One block of the kernel, read at a sample.

  The kernel works on blocks of 256 samples: a block of each input array goes in, 256 scores come out. What the body
  leaves in the output block is, index by index, a function of the three input blocks (the generated value module's
  function of the loads: the logistic of nine summands, each a reduction read at the sample's index). Here that
  function at sample `r` of the block is identified with the score of sample `r`'s three fields: each of the nine
  summands is the matching piece of the logit (three own terms, three dot products of column sums, three linear
  terms), in the same order.
-/
import proofs.«146682_j30408368456214_1_alg».proof.Proof.FieldScore
import proofs.«146682_j30408368456214_1_alg».proof.Proof.Gen.KernelIdeal.Value

noncomputable section

namespace Cert.KernelIdeal.BlockScore

open Cert.KernelIdeal Cert.KernelIdeal.Gen Cert.KernelIdeal.Value
open Idealize.ShloMosaic Idealize.ShloMosaic.ValueIdx Cert.FieldScore

/-- Entry `r` of the output block is the score of sample `r` of the three input blocks. -/
theorem block_entry (P0 : Vec Ideal S256x50x97 .f32) (P1 : Vec Ideal S256x10x97 .f32) (P2 : Vec Ideal S256x20x97 .f32)
    (r : Fin 256) :
    E3 (F := Ideal) P0 P1 P2 (ix1 r) = score (sample P0 r) (sample P1 r) (sample P2 r) :=
  congrArg Ideal.logistic (add_nine
    (kernel_ownTerm (.inl rfl) rfl 0 (by omega) P0 slices_S256x50x97_o0_0_0_S256x50x32 reduces_S256x50x32_S256x32
      reduces_S256x32_S256 (ix3_0 (ix1 r)) (ix3_1 (ix1 r)) r rfl rfl)
    (kernel_ownTerm (.inl rfl) rfl 32 (by omega) P1 slices_S256x10x97_o0_0_32_S256x10x32 reduces_S256x10x32_S256x32
      reduces_S256x32_S256 (ix3_2 (ix1 r)) (ix3_3 (ix1 r)) r rfl rfl)
    (kernel_ownTerm (.inl rfl) rfl 64 (by omega) P2 slices_S256x20x97_o0_0_64_S256x20x32 reduces_S256x20x32_S256x32
      reduces_S256x32_S256 (ix3_4 (ix1 r)) (ix3_5 (ix1 r)) r rfl rfl)
    (kernel_pairTerm (.inl rfl) rfl 32 (by omega) 0 (by omega) P0 P1 reduces_S256x50x97_S256x97 reduces_S256x10x97_S256x97
      slices_S256x97_o0_32_S256x32 slices_S256x97_o0_0_S256x32 reduces_S256x32_S256 (ix3_6 (ix1 r)) r rfl)
    (kernel_pairTerm (.inl rfl) rfl 64 (by omega) 0 (by omega) P0 P2 reduces_S256x50x97_S256x97 reduces_S256x20x97_S256x97
      slices_S256x97_o0_64_S256x32 slices_S256x97_o0_0_S256x32 reduces_S256x32_S256 (ix3_7 (ix1 r)) r rfl)
    (kernel_pairTerm (.inl rfl) rfl 64 (by omega) 32 (by omega) P1 P2 reduces_S256x10x97_S256x97 reduces_S256x20x97_S256x97
      slices_S256x97_o0_64_S256x32 slices_S256x97_o0_32_S256x32 reduces_S256x32_S256 (ix3_8 (ix1 r)) r rfl)
    (kernel_colSum (.inl rfl) rfl P0 reduces_S256x50x97_S256x97 (ix3_9 (ix1 r)) r linCol rfl rfl)
    (kernel_colSum (.inl rfl) rfl P1 reduces_S256x10x97_S256x97 (ix3_10 (ix1 r)) r linCol rfl rfl)
    (kernel_colSum (.inl rfl) rfl P2 reduces_S256x20x97_S256x97 (ix3_11 (ix1 r)) r linCol rfl rfl))

/-- The same at any index of the output block. -/
theorem block_entry_at (P0 : Vec Ideal S256x50x97 .f32) (P1 : Vec Ideal S256x10x97 .f32) (P2 : Vec Ideal S256x20x97 .f32)
    (y : S256.Idx) :
    E3 (F := Ideal) P0 P1 P2 y = score (sample P0 (y 0)) (sample P1 (y 0)) (sample P2 (y 0)) := by
  obtain ⟨r, rfl⟩ : ∃ r : Fin 256, y = ix1 r := ⟨y 0, eq_ix1 y⟩
  exact block_entry P0 P1 P2 r

theorem zero3 : (![0, 0, 0] : Fin 3 → Nat) = fun _ => 0 := funext fun a => by fin_cases a <;> rfl

/-- What the body leaves in the output's staging buffer (its one store, through the whole buffer, of a payload of
    the three loaded blocks), read at an index: the score of that sample of the blocks. -/
theorem out_entry (x0 : Vec Ideal S256x50x97 .f32) (x1 : Vec Ideal S256x10x97 .f32) (x2 : Vec Ideal S256x20x97 .f32)
    (y : S256.Idx) :
    out0_3 x0 x1 x2 y = score (sample x0 (y 0)) (sample x1 (y 0)) (sample x2 (y 0)) := by
  unfold out0_3
  rw [View.ld_unit_zero (S := S256x50x97) zero3, View.ld_unit_zero (S := S256x10x97) zero3,
    View.ld_unit_zero (S := S256x20x97) zero3]
  exact (canon3_eq x0 x1 x2 y).trans (block_entry_at x0 x1 x2 y)

end Cert.KernelIdeal.BlockScore

end
-- ==== Proof.BatchScore.lean ====
/-
  From blocks to the whole batch.

  The grid has 64 points; point `t` stages block `t` (256 consecutive samples) of each input array and writes back
  block `t` of the result. The index maps are `t ↦ (t, 0, 0)` for the inputs and `t ↦ t` for the output (decided over
  the grid), so sample `r` of the blocks at point `t` is sample `256·t + r` of the arrays, and what point `t` writes
  back is block `t` of ONE function of the argument arrays: the batch's scores. The 64 blocks cover the 16384 result
  entries (entry `b` lies in block `b / 256`), so after the run the result array is that function.
-/
import proofs.«146682_j30408368456214_1_alg».proof.Proof.BlockScore

noncomputable section

namespace Cert.KernelIdeal.BatchScore

open Cert.KernelIdeal Cert.KernelIdeal.Gen Cert.KernelIdeal.Value Cert.KernelIdeal.BlockScore
open Idealize.ShloMosaic Idealize.ShloMosaic.TcCoe Idealize.SL.Sem Idealize.ShloMosaic.ValueIdx Cert.FieldScore
open Idealize.ShloMosaic.Pipeline (Dat)

variable (m : (ℓ : Loc nD τ sig) → Buf (Elt Ideal) ℓ) (ρ : Dev nD → PrngReg)

/-- The printed index maps, decided over the grid: every input window moves with the output window along the batch
    axis and stays at block 0 on the other two. -/
theorem index_facts : ∀ t : Fin cfg0.N,
    win0_0.index t (0 : Fin 3) = win0_3.index t (0 : Fin 1) ∧ win0_0.index t (1 : Fin 3) = 0 ∧ win0_0.index t (2 : Fin 3) = 0
    ∧ win0_1.index t (0 : Fin 3) = win0_3.index t (0 : Fin 1) ∧ win0_1.index t (1 : Fin 3) = 0 ∧ win0_1.index t (2 : Fin 3) = 0
    ∧ win0_2.index t (0 : Fin 3) = win0_3.index t (0 : Fin 1) ∧ win0_2.index t (1 : Fin 3) = 0 ∧ win0_2.index t (2 : Fin 3) = 0 :=
  (by decide +kernel : ∀ t : Fin grid0.N, _)

/-- Every one of the 64 output blocks is some point's. -/
theorem index_onto : ∀ q : Fin 64, ∃ t : Fin cfg0.N, win0_3.index t = ![q.val] :=
  (by decide +kernel : ∀ q : Fin 64, ∃ t : Fin grid0.N, win0_3.index t = ![q.val])

/-- The three input blocks at a point, at their literal types. -/
abbrev userBlock (c : Dev nD) (t : Fin cfg0.N) : Vec Ideal S256x50x97 .f32 := iblk m c 0 t
abbrev ctxBlock (c : Dev nD) (t : Fin cfg0.N) : Vec Ideal S256x10x97 .f32 := iblk m c 1 t
abbrev docBlock (c : Dev nD) (t : Fin cfg0.N) : Vec Ideal S256x20x97 .f32 := iblk m c 2 t

/-- Sample `r` of the user block at point `t` is sample `256·t + r` of the user array. -/
theorem user_sample (c : Dev nD) (t : Fin cfg0.N) (r : Fin 256) (b : Fin 16384)
    (hb : b.val = win0_3.index t (0 : Fin 1) * 256 + 1 * r.val) :
    sample (userBlock m c t) r = sample (V m c main_arg0) b := by
  obtain ⟨e0, e1, e2, -⟩ := index_facts t
  funext i q
  show V m c main_arg0 (((cfg0.win 0).blk t).view.emb (ix3 r i q)) = V m c main_arg0 (ix3 b i q)
  refine congrArg (V m c main_arg0) (funext fun a => Fin.ext ?_)
  match a with
  | ⟨0, _⟩ => show win0_0.index t (0 : Fin 3) * 256 + 1 * r.val = b.val; omega
  | ⟨1, _⟩ => show win0_0.index t (1 : Fin 3) * 50 + 1 * i.val = i.val; omega
  | ⟨2, _⟩ => show win0_0.index t (2 : Fin 3) * 97 + 1 * q.val = q.val; omega

/-- Sample `r` of the context block at point `t` is sample `256·t + r` of the context array. -/
theorem ctx_sample (c : Dev nD) (t : Fin cfg0.N) (r : Fin 256) (b : Fin 16384)
    (hb : b.val = win0_3.index t (0 : Fin 1) * 256 + 1 * r.val) :
    sample (ctxBlock m c t) r = sample (V m c main_arg1) b := by
  obtain ⟨-, -, -, e0, e1, e2, -⟩ := index_facts t
  funext i q
  show V m c main_arg1 (((cfg0.win 1).blk t).view.emb (ix3 r i q)) = V m c main_arg1 (ix3 b i q)
  refine congrArg (V m c main_arg1) (funext fun a => Fin.ext ?_)
  match a with
  | ⟨0, _⟩ => show win0_1.index t (0 : Fin 3) * 256 + 1 * r.val = b.val; omega
  | ⟨1, _⟩ => show win0_1.index t (1 : Fin 3) * 10 + 1 * i.val = i.val; omega
  | ⟨2, _⟩ => show win0_1.index t (2 : Fin 3) * 97 + 1 * q.val = q.val; omega

/-- Sample `r` of the document block at point `t` is sample `256·t + r` of the document array. -/
theorem doc_sample (c : Dev nD) (t : Fin cfg0.N) (r : Fin 256) (b : Fin 16384)
    (hb : b.val = win0_3.index t (0 : Fin 1) * 256 + 1 * r.val) :
    sample (docBlock m c t) r = sample (V m c main_arg2) b := by
  obtain ⟨-, -, -, -, -, -, e0, e1, e2⟩ := index_facts t
  funext i q
  show V m c main_arg2 (((cfg0.win 2).blk t).view.emb (ix3 r i q)) = V m c main_arg2 (ix3 b i q)
  refine congrArg (V m c main_arg2) (funext fun a => Fin.ext ?_)
  match a with
  | ⟨0, _⟩ => show win0_2.index t (0 : Fin 3) * 256 + 1 * r.val = b.val; omega
  | ⟨1, _⟩ => show win0_2.index t (1 : Fin 3) * 20 + 1 * i.val = i.val; omega
  | ⟨2, _⟩ => show win0_2.index t (2 : Fin 3) * 97 + 1 * q.val = q.val; omega

/-- What point `t` writes back is block `t` of the batch's scores. -/
theorem flushed_scores (c : Dev nD) (t : Fin cfg0.N) :
    (dats m 0 c).flushed 3 t
      = ((cfg0.win 3).blk t).view.read (Elt Ideal) (scores (V m c main_arg0) (V m c main_arg1) (V m c main_arg2)) := by
  rw [flushed3]
  funext y
  refine (out_entry (userBlock m c t) (ctxBlock m c t) (docBlock m c t) y).trans ?_
  exact congr (congr (congrArg score (user_sample m c t (y 0) _ rfl)) (ctx_sample m c t (y 0) _ rfl))
    (doc_sample m c t (y 0) _ rfl)

/-- An index of the result is in point `t`'s block iff its coordinate is in the block's range. -/
theorem mem_block (t : Fin cfg0.N) (i : S16384.Idx) :
    i ∈ ((cfg0.win 3).blk t).view.set
      ↔ ∀ a : Fin 1, win0_3.index t a * S256.size a ≤ (i a).val ∧ (i a).val < win0_3.index t a * S256.size a + S256.size a := by
  show i ∈ ((View.whole main_v0).slice (win0_3.rect t)).set ↔ _
  rw [View.set_slice_whole, Rect.mem_set_unit]
  exact Iff.rfl

/-- Every result entry is in some point's block: entry `b` in block `b / 256`. -/
theorem covered (i : S16384.Idx) :
    ∃ t : Fin cfg0.N, (cfg0.win 3).flush t = true ∧ i ∈ ((cfg0.win 3).blk t).view.set := by
  have hi : (i 0).val < 16384 := (i 0).isLt
  obtain ⟨t, ht⟩ := index_onto ⟨(i 0).val / 256, by omega⟩
  have q0 : win0_3.index t (0 : Fin 1) = (i 0).val / 256 := congrFun ht 0
  refine ⟨t, flush0_3 t, ?_⟩
  rw [mem_block]
  intro a
  match a with
  | ⟨0, _⟩ =>
    show win0_3.index t (0 : Fin 1) * 256 ≤ (i 0).val ∧ (i 0).val < win0_3.index t (0 : Fin 1) * 256 + 256
    omega

/-- After the run the result array is the batch's scores of the argument arrays. -/
theorem final (c : Dev nD) :
    (dats m 0 c).arrAt 3 cfg0.N
      = scores (m ((c : Thread nD τ).loc main_arg0)) (m ((c : Thread nD τ).loc main_arg1)) (m ((c : Thread nD τ).loc main_arg2)) :=
  (dats m 0 c).arrAt_eq_of_cover 3 _ (fun t _ => flushed_scores m c t) covered

/-- The kernel's run, read: it terminates with the result array at the batch's scores and the arguments unchanged. -/
theorem run : θ_run defs (onTc (τ := τ) (main (F := Ideal))) ⟨m, fun _ => 0, ρ⟩ fun r => ∀ c : Dev nD,
      r.2.mem ((c : Thread nD τ).loc main_v0)
        = scores (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.BatchScore

end
-- ==== Proof.RefScore.lean ====
/-
  The reference, read at a sample.

  The reference computes the whole batch at once with host operations: column sums of each input over its rows,
  the three own terms (their squares summed over rows and columns in ONE reduction over two axes), the three dot
  products of sliced column sums, the three linear columns, all added left to right, and then `1 / (1 + exp(−z))`
  spelt out in host operations. Entry `b` of its result is the score of sample `b`'s three fields: the nine
  summands are the nine pieces of the logit, and the spelt-out quotient is the logistic function, the word
  `0x3F800000` being the real one.
-/
import proofs.«146682_j30408368456214_1_alg».proof.Proof.FieldScore
import proofs.«146682_j30408368456214_1_alg».proof.Proof.Gen.ReferenceIdeal.Read
import Idealize.ShloMosaic.Lib.IdealHost

noncomputable section

namespace Cert.ReferenceIdeal.RefScore

open Cert.ReferenceIdeal Cert.ReferenceIdeal.Gen Cert.ReferenceIdeal.Read
open Idealize.ShloMosaic Idealize.ShloMosaic.ValueIdx Cert.FieldScore

variable (U : (⟨S16384x50x97, .f32⟩ : BufTy).Contents (Elt Ideal)) (C : (⟨S16384x10x97, .f32⟩ : BufTy).Contents (Elt Ideal))
  (D : (⟨S16384x20x97, .f32⟩ : BufTy).Contents (Elt Ideal)) (b : Fin 16384)

/-- The user field's own term. -/
theorem own_user : val_main_v11 (F := Ideal) U (ix1 b) = ownTerm (sample U b) 0 (by omega) :=
  host_ownTerm h_S_ 0 (by omega) U slices_S16384x50x97_S16384x50x32_0_0_0 reducesTo_S16384x50x32_S16384x32_d1 (by decide)
    reducesTo_S16384x32_S16384_d1 (by decide) reducesTo_S16384x50x32_S16384_d1_2 bcast_S_S16384 (ix1 b) b rfl

/-- The context field's own term. -/
theorem own_ctx : val_main_v20 (F := Ideal) C (ix1 b) = ownTerm (sample C b) 32 (by omega) :=
  host_ownTerm h_S_ 32 (by omega) C slices_S16384x10x97_S16384x10x32_0_0_32 reducesTo_S16384x10x32_S16384x32_d1 (by decide)
    reducesTo_S16384x32_S16384_d1 (by decide) reducesTo_S16384x10x32_S16384_d1_2 bcast_S_S16384 (ix1 b) b rfl

/-- The document field's own term. -/
theorem own_doc : val_main_v30 (F := Ideal) D (ix1 b) = ownTerm (sample D b) 64 (by omega) :=
  host_ownTerm h_S_ 64 (by omega) D slices_S16384x20x97_S16384x20x32_0_0_64 reducesTo_S16384x20x32_S16384x32_d1 (by decide)
    reducesTo_S16384x32_S16384_d1 (by decide) reducesTo_S16384x20x32_S16384_d1_2 bcast_S_S16384 (ix1 b) b rfl

/-- User (second block) against context (first block). -/
theorem pair_user_ctx : val_main_v35 (F := Ideal) U C (ix1 b) = pairTerm (sample U b) 32 (by omega) (sample C b) 0 (by omega) :=
  host_pairTerm h_S_ 32 (by omega) 0 (by omega) U C reducesTo_S16384x50x97_S16384x97_d1 (by decide)
    reducesTo_S16384x10x97_S16384x97_d1 (by decide) slices_S16384x97_S16384x32_0_32 slices_S16384x97_S16384x32_0_0
    reducesTo_S16384x32_S16384_d1 (by decide) (ix1 b) b rfl

/-- User (third block) against document (first block). -/
theorem pair_user_doc : val_main_v40 (F := Ideal) U D (ix1 b) = pairTerm (sample U b) 64 (by omega) (sample D b) 0 (by omega) :=
  host_pairTerm h_S_ 64 (by omega) 0 (by omega) U D reducesTo_S16384x50x97_S16384x97_d1 (by decide)
    reducesTo_S16384x20x97_S16384x97_d1 (by decide) slices_S16384x97_S16384x32_0_64 slices_S16384x97_S16384x32_0_0
    reducesTo_S16384x32_S16384_d1 (by decide) (ix1 b) b rfl

/-- Context (third block) against document (second block). -/
theorem pair_ctx_doc : val_main_v45 (F := Ideal) C D (ix1 b) = pairTerm (sample C b) 64 (by omega) (sample D b) 32 (by omega) :=
  host_pairTerm h_S_ 64 (by omega) 32 (by omega) C D reducesTo_S16384x10x97_S16384x97_d1 (by decide)
    reducesTo_S16384x20x97_S16384x97_d1 (by decide) slices_S16384x97_S16384x32_0_64 slices_S16384x97_S16384x32_0_32
    reducesTo_S16384x32_S16384_d1 (by decide) (ix1 b) b rfl

/-- The user field's linear term: column 96 of its column sums, the unit axis dropped. -/
theorem lin_user : val_main_v48 (F := Ideal) U (ix1 b) = colSum (sample U b) linCol :=
  (val_main_v48_apply U (ix1 b)).trans ((val_main_v47_apply U _).trans
    (host_colSum h_S_ U reducesTo_S16384x50x97_S16384x97_d1 (by decide) _ b linCol (Nat.div_one _) rfl))

/-- The context field's linear term. -/
theorem lin_ctx : val_main_v51 (F := Ideal) C (ix1 b) = colSum (sample C b) linCol :=
  (val_main_v51_apply C (ix1 b)).trans ((val_main_v50_apply C _).trans
    (host_colSum h_S_ C reducesTo_S16384x10x97_S16384x97_d1 (by decide) _ b linCol (Nat.div_one _) rfl))

/-- The document field's linear term. -/
theorem lin_doc : val_main_v54 (F := Ideal) D (ix1 b) = colSum (sample D b) linCol :=
  (val_main_v54_apply D (ix1 b)).trans ((val_main_v53_apply D _).trans
    (host_colSum h_S_ D reducesTo_S16384x20x97_S16384x97_d1 (by decide) _ b linCol (Nat.div_one _) rfl))

/-- The nine summands, added in the reference's order, are the logit. -/
theorem logit_entry : val_main_v55 (F := Ideal) U C D (ix1 b) = logit (sample U b) (sample C b) (sample D b) :=
  add_nine (own_user U b) (own_ctx C b) (own_doc D b) (pair_user_ctx U C b) (pair_user_doc U D b) (pair_ctx_doc C D b)
    (lin_user U b) (lin_ctx C b) (lin_doc D b)

/-- Entry `b` of the reference's result is the score of sample `b`. -/
theorem ref_entry : val_main_v61 (F := Ideal) U C D (ix1 b) = score (sample U b) (sample C b) (sample D b) := by
  have one60 : val_main_v60 (F := Ideal) (ix1 b) = 1 := (val_main_v60_apply (ix1 b)).trans Ideal.ofBits_one_f32
  have one58 : val_main_v58 (F := Ideal) (ix1 b) = 1 := (val_main_v58_apply (ix1 b)).trans Ideal.ofBits_one_f32
  rw [val_main_v61_apply, val_main_v59_apply, val_main_v57_apply, val_main_v56_apply, one60, one58,
    logit_entry U C D b]
  rfl

/-- The reference's result is the batch's scores of its arguments. -/
theorem ref_scores : val_main_v61 (F := Ideal) U C D = scores U C D := by
  funext i
  obtain ⟨b, rfl⟩ : ∃ b : Fin 16384, i = ix1 b := ⟨i 0, eq_ix1 i⟩
  exact ref_entry U C D b

end Cert.ReferenceIdeal.RefScore

end
-- ==== Proof.lean ====
/-
  A field-aware factorization score, batched: the kernel against its jnp reference, over the extended reals.

  Each of 16384 samples has a user field (50 rows), a context field (10 rows) and a document field (20 rows), every
  row 97 wide: three latent blocks of width 32 and one linear column. With `S_x` the column sums of a field `x`, the
  logit of a sample is
      ½(Σ_l S_u(l)² − Σ_l Σ_i u(i,l)²) + ½(… context, block 1) + ½(… document, block 2)
        + Σ_l S_u(32+l)·S_c(l) + Σ_l S_u(64+l)·S_d(l) + Σ_l S_c(64+l)·S_d(32+l)
        + S_u(96) + S_c(96) + S_d(96),
  and the score is its logistic (Proof/FieldScore.lean).

  The kernel computes 256 samples per grid point with one-axis reductions; entry `r` of a block is the score of
  sample `r` of the input blocks (Proof/BlockScore.lean), block `t` is samples `256·t …` of the arrays, and the 64
  blocks cover the result (Proof/BatchScore.lean). The reference computes the whole batch with host operations, the
  squares summed over rows and columns in one two-axis reduction and the logistic spelt `1 / (1 + exp(−z))`; its
  entry `b` is the score of sample `b` (Proof/RefScore.lean). The two sides add the same nine summands in the same
  order; the only rearrangement is the exchange of two finite sums inside the squares' term, which holds in any
  commutative monoid, so the precondition (finite inputs) is never opened. `tpu.logistic` and the host's quotient are
  one function at the ideal values. The idealization rewrote nothing, so `preserves` is trivial; the three frames are
  the generated ones (the reference's is its generated run with the result dropped).
-/
import proofs.«146682_j30408368456214_1_alg».proof.Defs
import proofs.«146682_j30408368456214_1_alg».proof.Proof.Gen.Kernel
import proofs.«146682_j30408368456214_1_alg».proof.Proof.Gen.Kernel.Skeleton
import proofs.«146682_j30408368456214_1_alg».proof.Proof.Gen.Kernel.Launch
import proofs.«146682_j30408368456214_1_alg».proof.Proof.Gen.Kernel.Points
import proofs.«146682_j30408368456214_1_alg».proof.Proof.Gen.Kernel.Frame
import proofs.«146682_j30408368456214_1_alg».proof.Proof.Gen.KernelIdeal
import proofs.«146682_j30408368456214_1_alg».proof.Proof.Gen.KernelIdeal.Skeleton
import proofs.«146682_j30408368456214_1_alg».proof.Proof.Gen.KernelIdeal.Launch
import proofs.«146682_j30408368456214_1_alg».proof.Proof.Gen.KernelIdeal.Points
import proofs.«146682_j30408368456214_1_alg».proof.Proof.Gen.KernelIdeal.Frame
import proofs.«146682_j30408368456214_1_alg».proof.Proof.Gen.ReferenceIdeal
import proofs.«146682_j30408368456214_1_alg».proof.Proof.Gen.Pre_finite_inputs
import proofs.«146682_j30408368456214_1_alg».proof.Proof.Gen.KernelIdeal.Value
import proofs.«146682_j30408368456214_1_alg».proof.Proof.Gen.ReferenceIdeal.Run
import proofs.«146682_j30408368456214_1_alg».proof.Proof.Gen.ReferenceIdeal.Read
import proofs.«146682_j30408368456214_1_alg».proof.Proof.BatchScore
import proofs.«146682_j30408368456214_1_alg».proof.Proof.RefScore
import Idealize.ShloMosaic.Adequacy
import Idealize.ShloMosaic.Init

noncomputable section

namespace Cert.Proof

open Idealize.ShloMosaic Idealize.ShloMosaic.TcCoe Idealize.SL.Sem Cert.FieldScore

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the batch's scores of the (agreeing) arguments in their result arrays. -/
theorem algebraic : Cert.algebraic_KernelIdeal_ReferenceIdeal := by
  intro m ρ m' ρ' _ hagree
  refine ⟨_, Cert.KernelIdeal.BatchScore.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v61_eq m' c).trans
    ((Cert.ReferenceIdeal.RefScore.ref_scores _ _ _).trans
      (congr (congr (congrArg scores (hagree c).1) (hagree c).2.1) (hagree c).2.2))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
